-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x64x128 : Shape := ⟨4, ![4, 32, 64, 128]⟩
abbrev S128x256 : Shape := ⟨2, ![128, 256]⟩
abbrev S128 : Shape := ⟨1, ![128]⟩
abbrev S_ : Shape := ⟨0, ![]⟩

class Facts : Prop where
  bcast_S_S4x32x64x128 : S_.BroadcastsInDim S4x32x64x128 (![] : Fin 0 → Fin S4x32x64x128.rank)
  reducesTo_S4x32x64x128_S_d0_1_2_3 : S4x32x64x128.ReducesTo [0, 1, 2, 3] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S4x32x64x128 .f32) (main_arg1 : FVec F S128x256 .f32) (main_arg2 : FVec F S128 .f32) (main_arg3 : FVec F S128x256 .f32) (main_arg4 : FVec F S128 .f32) : IVec S_ 1 :=
  let main_v0 : FVec F S4x32x64x128 .f32 := Host.absf main_arg0
  let main_cst : FVec F S_ .f32 := constant S_ .f32 0x7F800000#32
  let main_v1 : FVec F S4x32x64x128 .f32 := broadcastInDim S4x32x64x128 ![] bcast_S_S4x32x64x128 main_cst
  let main_v2 : IVec S4x32x64x128 1 := cmpf .olt main_v0 main_v1
  let main_c : IVec S_ 1 := constantI S_ 1 1#1
  let main_v3 : IVec S_ 1 := (fun x v => Host.reduce IntOp.andi x v reducesTo_S4x32x64x128_S_d0_1_2_3 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_v13 main_v16
-- ==== Kernel.lean ====
abbrev S4x32x64x128 : Shape := ⟨4, ![4, 32, 64, 128]⟩
abbrev S128x256 : Shape := ⟨2, ![128, 256]⟩
abbrev S128 : Shape := ⟨1, ![128]⟩
abbrev S128x64x128 : Shape := ⟨3, ![128, 64, 128]⟩
abbrev S4x64x128 : Shape := ⟨3, ![4, 64, 128]⟩
abbrev S128x128 : Shape := ⟨2, ![128, 128]⟩
abbrev S256x128 : Shape := ⟨2, ![256, 128]⟩
abbrev S4x64x1x128 : Shape := ⟨4, ![4, 64, 1, 128]⟩
abbrev S4x1x64x128 : Shape := ⟨4, ![4, 1, 64, 128]⟩
abbrev S4x64x64x128 : Shape := ⟨4, ![4, 64, 64, 128]⟩
abbrev S1x1x1x128 : Shape := ⟨4, ![1, 1, 1, 128]⟩
abbrev S1x128 : Shape := ⟨2, ![1, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x32x64x128, .f32⟩
  | .hbm, ⟨1, _⟩ => ⟨S128x256, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S128x64x128, .f32⟩
  | .hbm, ⟨6, _⟩ => ⟨S128x64x128, .f32⟩
  | .hbm, ⟨7, _⟩ => ⟨S4x32x64x128, .f32⟩
  | .local _ .vmem, ⟨0, _⟩ => ⟨S4x64x128, .f32⟩
  | .local _ .vmem, ⟨1, _⟩ => ⟨S4x64x128, .f32⟩
  | .local _ .vmem, ⟨2, _⟩ => ⟨S128x256, .f32⟩
  | .local _ .vmem, ⟨3, _⟩ => ⟨S128, .f32⟩
  | .local _ .vmem, ⟨4, _⟩ => ⟨S128x256, .f32⟩
  | .local _ .vmem, ⟨5, _⟩ => ⟨S128, .f32⟩
  | .local _ .vmem, ⟨6, _⟩ => ⟨S4x64x128, .f32⟩
  | .local _ .vmem, ⟨7, _⟩ => ⟨S4x64x128, .f32⟩
  | _, _ => ⟨S4x32x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x32x64x128_S128x64x128 : S4x32x64x128.ShapeCasts S128x64x128
  inb_S4x64x128_S4x64x128_0_0_0 : ∀ a, (![0, 0, 0] : Fin 3 → Nat) a + S4x64x128.size a ≤ S4x64x128.size a
  h_S4x64x128 : 0 < S4x64x128.numel
  shapeCasts_S4x64x128_S4x64x128 : S4x64x128.ShapeCasts S4x64x128
  inb_S128x256_S128x256_0_0 : ∀ a, (![0, 0] : Fin 2 → Nat) a + S128x256.size a ≤ S128x256.size a
  h_S128x256 : 0 < S128x256.numel
  slices_S128x256_o0_0_S128x128 : S128x256.Slices ![0, 0] S128x128
  bitsLt_bf16_f32 : FTy.bits .bf16 < FTy.bits .f32
  slices_S128x256_o0_128_S128x128 : S128x256.Slices ![0, 128] S128x128
  inb_S128_S128_0 : ∀ a, (![0] : Fin 1 → Nat) a + S128.size a ≤ S128.size a
  h_S128 : 0 < S128.numel
  shapeCasts_S4x64x128_S256x128 : S4x64x128.ShapeCasts S256x128
  transposes_S128x128_p1_0_S128x128 : S128x128.Transposes [1, 0] S128x128
  shapeCasts_S256x128_S4x64x128 : S256x128.ShapeCasts S4x64x128
  shapeCasts_S4x64x128_S4x64x1x128 : S4x64x128.ShapeCasts S4x64x1x128
  shapeCasts_S4x64x128_S4x1x64x128 : S4x64x128.ShapeCasts S4x1x64x128
  broadcasts_S4x64x1x128_S4x64x64x128 : S4x64x1x128.Broadcasts S4x64x64x128
  broadcasts_S4x1x64x128_S4x64x64x128 : S4x1x64x128.Broadcasts S4x64x64x128
  shapeCasts_S128_S1x1x1x128 : S128.ShapeCasts S1x1x1x128
  broadcasts_S1x1x1x128_S4x64x64x128 : S1x1x1x128.Broadcasts S4x64x64x128
  reduces_S4x64x64x128_S4x64x128 : S4x64x64x128.Reduces [2] S4x64x128
  shapeCasts_S128_S1x128 : S128.ShapeCasts S1x128
  broadcasts_S1x128_S256x128 : S1x128.Broadcasts S256x128
  shapeCasts_S128x64x128_S4x32x64x128 : S128x64x128.ShapeCasts S4x32x64x128
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x128.size a ≤ S128x64x128.size a
  hwx0_0 : ∀ i : grid0.Coords, EltTy.bits .f32 = 32 ∨ (Rect.block (s := S128x64x128) S4x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x64x128.size a ≤ S128x64x128.size a
  hwx0_5 : ∀ i : grid0.Coords, EltTy.bits .f32 = 32 ∨ (Rect.block (s := S128x64x128) S4x64x128.size (cc0_transform_5 i) (hinb0_5 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_v0) S4x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S4x64x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x32x64x128 : Shape := ⟨4, ![4, 32, 64, 128]⟩
abbrev S128x256 : Shape := ⟨2, ![128, 256]⟩
abbrev S128 : Shape := ⟨1, ![128]⟩
abbrev S128x128 : Shape := ⟨2, ![128, 128]⟩
abbrev S4x32x64x1x128 : Shape := ⟨5, ![4, 32, 64, 1, 128]⟩
abbrev S4x32x1x64x128 : Shape := ⟨5, ![4, 32, 1, 64, 128]⟩
abbrev S4x32x64x64x128 : Shape := ⟨5, ![4, 32, 64, 64, 128]⟩
abbrev S1x1x1x1x128 : Shape := ⟨5, ![1, 1, 1, 1, 128]⟩
abbrev S_ : Shape := ⟨0, ![]⟩
abbrev S4x32x64x256 : Shape := ⟨4, ![4, 32, 64, 256]⟩
abbrev S1x1x1x128 : Shape := ⟨4, ![1, 1, 1, 128]⟩

abbrev nBuf : Space → Nat
  | .hbm => 30
  | .vmem => 0
  | .smem => 0
  | _ => 0

abbrev bufTy : (tb : Table) → Fin (tcTables nBuf tb) → BufTy
  | .hbm, ⟨0, _⟩ => ⟨S4x32x64x128, .f32⟩
  | .hbm, ⟨1, _⟩ => ⟨S128x256, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S4x32x64x128, .f32⟩
  | .hbm, ⟨8, _⟩ => ⟨S4x32x64x128, .f32⟩
  | .hbm, ⟨9, _⟩ => ⟨S4x32x64x1x128, .f32⟩
  | .hbm, ⟨10, _⟩ => ⟨S4x32x1x64x128, .f32⟩
  | .hbm, ⟨11, _⟩ => ⟨S4x32x64x64x128, .f32⟩
  | .hbm, ⟨12, _⟩ => ⟨S4x32x64x64x128, .f32⟩
  | .hbm, ⟨13, _⟩ => ⟨S4x32x64x64x128, .f32⟩
  | .hbm, ⟨14, _⟩ => ⟨S1x1x1x1x128, .f32⟩
  | .hbm, ⟨15, _⟩ => ⟨S4x32x64x64x128, .f32⟩
  | .hbm, ⟨16, _⟩ => ⟨S4x32x64x64x128, .f32⟩
  | .hbm, ⟨17, _⟩ => ⟨S_, .f32⟩
  | .hbm, ⟨18, _⟩ => ⟨S4x32x64x64x128, .f32⟩
  | .hbm, ⟨19, _⟩ => ⟨S4x32x64x64x128, .f32⟩
  | .hbm, ⟨20, _⟩ => ⟨S_, .f32⟩
  | .hbm, ⟨21, _⟩ => ⟨S4x32x64x128, .f32⟩
  | .hbm, ⟨22, _⟩ => ⟨S4x32x64x256, .f32⟩
  | .hbm, ⟨23, _⟩ => ⟨S4x32x64x128, .f32⟩
  | .hbm, ⟨24, _⟩ => ⟨S1x1x1x128, .f32⟩
  | .hbm, ⟨25, _⟩ => ⟨S4x32x64x128, .f32⟩
  | .hbm, ⟨26, _⟩ => ⟨S4x32x64x128, .f32⟩
  | .hbm, ⟨27, _⟩ => ⟨S_, .f32⟩
  | .hbm, ⟨28, _⟩ => ⟨S4x32x64x128, .f32⟩
  | .hbm, ⟨29, _⟩ => ⟨S4x32x64x128, .f32⟩
  | _, _ => ⟨S4x32x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call1_cst : Ref sig .tc := ⟨.hbm, 27, rfl⟩
abbrev main_call1_v0 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  slices_S128x256_S128x128_0_0 : S128x256.Slices ![0, 0] S128x128
  slices_S128x256_S128x128_0_128 : S128x256.Slices ![0, 128] S128x128
  bcast_S4x32x64x128_S4x32x64x1x128_0_1_2_4 : S4x32x64x128.BroadcastsInDim S4x32x64x1x128 (![0, 1, 2, 4] : Fin 4 → Fin S4x32x64x1x128.rank)
  bcast_S4x32x64x128_S4x32x1x64x128_0_1_3_4 : S4x32x64x128.BroadcastsInDim S4x32x1x64x128 (![0, 1, 3, 4] : Fin 4 → Fin S4x32x1x64x128.rank)
  bcast_S4x32x64x1x128_S4x32x64x64x128_0_1_2_3_4 : S4x32x64x1x128.BroadcastsInDim S4x32x64x64x128 (![0, 1, 2, 3, 4] : Fin 5 → Fin S4x32x64x64x128.rank)
  bcast_S4x32x1x64x128_S4x32x64x64x128_0_1_2_3_4 : S4x32x1x64x128.BroadcastsInDim S4x32x64x64x128 (![0, 1, 2, 3, 4] : Fin 5 → Fin S4x32x64x64x128.rank)
  bcast_S128_S1x1x1x1x128_4 : S128.BroadcastsInDim S1x1x1x1x128 (![4] : Fin 1 → Fin S1x1x1x1x128.rank)
  bcast_S1x1x1x1x128_S4x32x64x64x128_0_1_2_3_4 : S1x1x1x1x128.BroadcastsInDim S4x32x64x64x128 (![0, 1, 2, 3, 4] : Fin 5 → Fin S4x32x64x64x128.rank)
  bcast_S_S4x32x64x64x128 : S_.BroadcastsInDim S4x32x64x64x128 (![] : Fin 0 → Fin S4x32x64x64x128.rank)
  reducesTo_S4x32x64x64x128_S4x32x64x128_d3 : S4x32x64x64x128.ReducesTo [3] S4x32x64x128
  h_S_ : 0 < S_.numel
  concatenates_S4x32x64x128_S4x32x64x128_S4x32x64x256_d3 : Shape.Concatenates [S4x32x64x128, S4x32x64x128] S4x32x64x256 3
  bcast_S128_S1x1x1x128_3 : S128.BroadcastsInDim S1x1x1x128 (![3] : Fin 1 → Fin S1x1x1x128.rank)
  bcast_S1x1x1x128_S4x32x64x128_0_1_2_3 : S1x1x1x128.BroadcastsInDim S4x32x64x128 (![0, 1, 2, 3] : Fin 4 → Fin S4x32x64x128.rank)
  bcast_S_S4x32x64x128 : S_.BroadcastsInDim S4x32x64x128 (![] : Fin 0 → Fin S4x32x64x128.rank)
  dot_S4x32x64x128_S128x128_S4x32x64x128_3_1_012_0_n_n_wf : DotDims.WF S4x32x64x128 S128x128 S4x32x64x128 [3] [1] [0, 1, 2] [0] [] []
  dot_S4x32x64x256_S128x256_S4x32x64x128_3_1_012_0_n_n_wf : DotDims.WF S4x32x64x256 S128x256 S4x32x64x128 [3] [1] [0, 1, 2] [0] [] []

variable [Facts₀]

def dot_S4x32x64x128_S128x128_S4x32x64x128_3_1_012_0_n_n : DotDims S4x32x64x128 S128x128 S4x32x64x128 where
  lhsContracting := [3]
  rhsContracting := [1]
  lhsNonContracting := [0, 1, 2]
  rhsNonContracting := [0]
  lhsBatch := []
  rhsBatch := []
  wf := dot_S4x32x64x128_S128x128_S4x32x64x128_3_1_012_0_n_n_wf
def dot_S4x32x64x256_S128x256_S4x32x64x128_3_1_012_0_n_n : DotDims S4x32x64x256 S128x256 S4x32x64x128 where
  lhsContracting := [3]
  rhsContracting := [1]
  lhsNonContracting := [0, 1, 2]
  rhsNonContracting := [0]
  lhsBatch := []
  rhsBatch := []
  wf := dot_S4x32x64x256_S128x256_S4x32x64x128_3_1_012_0_n_n_wf

class Facts : Prop extends Facts₀ where

variable [Facts]
-- ==== Proof.Spec.lean ====
/-
  One message-passing layer on 64-node graphs, as a function on the extended reals.

  For a graph with node features `xg n f` (64 nodes, 128 features) and weights `We, Wn : [128, 256]`,
  biases `be, bn : [128]`:
    pI n k   = Σ_f xg n f · We[k, f]            (left half of We)
    pJ j k   = Σ_f xg j f · We[k, 128 + f]      (right half of We)
    agg n k  = Σ_j max (pI n k + pJ j k + be k) 0
    node n o = max (Σ_f xg n f · Wn[o, f] + Σ_k agg n k · Wn[o, 128 + k] + bn o) 0
  The two programs compared differ only in how they arrange these sums: one contracts the
  concatenation [x, agg] against Wn in a single sum over 256 columns, the other contracts the two
  halves apart and adds; `sum_halves` is the law between them. It is a regrouping of a finite sum
  in a commutative monoid, so it holds at the infinities as well and asks nothing of the inputs.
-/
import Idealize.ShloMosaic.PureOps.Ideal
import Idealize.ShloMosaic.Lib.ValueIdx

noncomputable section

open scoped BigOperators
open Idealize.ShloMosaic Idealize.ShloMosaic.ValueIdx

namespace Cert.Gnn

/-- Column `f` of the left half of a 256-wide weight row. -/
abbrev lo (f : Fin 128) : Fin 256 := ⟨f.val, by have := f.isLt; omega⟩
/-- Column `f` of its right half. -/
abbrev hi (f : Fin 128) : Fin 256 := ⟨128 + f.val, by have := f.isLt; omega⟩

/-- A sum over 256 columns is the sum over the left half plus the sum over the right half. -/
theorem sum_halves {M : Type*} [AddCommMonoid M] (g : Fin 256 → M) :
    ∑ k : Fin 256, g k = ∑ k : Fin 128, g (lo k) + ∑ k : Fin 128, g (hi k) :=
  Fin.sum_univ_add (a := 128) (b := 128) (fun k : Fin (128 + 128) => g k)

abbrev SX4 : Shape := ⟨4, ![4, 32, 64, 128]⟩
abbrev SX3 : Shape := ⟨3, ![128, 64, 128]⟩
abbrev SXB : Shape := ⟨3, ![4, 64, 128]⟩
abbrev SW : Shape := ⟨2, ![128, 256]⟩
abbrev SB : Shape := ⟨1, ![128]⟩

/-- Node `n`'s own projection through the left half of `We`. -/
def pI (xg : Fin 64 → Fin 128 → EReal) (We : SW.Idx → EReal) (n : Fin 64) (k : Fin 128) : EReal :=
  ∑ f : Fin 128, xg n f * We (ix2 k (lo f))

/-- Neighbour `j`'s projection through the right half of `We`. -/
def pJ (xg : Fin 64 → Fin 128 → EReal) (We : SW.Idx → EReal) (j : Fin 64) (k : Fin 128) : EReal :=
  ∑ f : Fin 128, xg j f * We (ix2 k (hi f))

/-- The rectified edge messages into node `n`, summed over the neighbours. -/
def agg (xg : Fin 64 → Fin 128 → EReal) (We : SW.Idx → EReal) (be : SB.Idx → EReal) (n : Fin 64) (k : Fin 128) : EReal :=
  ∑ j : Fin 64, max (pI xg We n k + pJ xg We j k + be (ix1 k)) 0

/-- The node update: the features and the aggregate through the two halves of `Wn`, the bias, rectified. -/
def node (xg : Fin 64 → Fin 128 → EReal) (We : SW.Idx → EReal) (be : SB.Idx → EReal) (Wn : SW.Idx → EReal)
    (bn : SB.Idx → EReal) (n : Fin 64) (o : Fin 128) : EReal :=
  max (∑ f : Fin 128, xg n f * Wn (ix2 o (lo f)) + ∑ k : Fin 128, agg xg We be n k * Wn (ix2 o (hi k)) + bn (ix1 o)) 0

/-- The layer on the [4, 32, 64, 128] input: graph (b, l), node `i 2`, output feature `i 3`. -/
def layer4 (x : SX4.Idx → EReal) (We : SW.Idx → EReal) (be : SB.Idx → EReal) (Wn : SW.Idx → EReal) (bn : SB.Idx → EReal) :
    SX4.Idx → EReal :=
  fun i => node (fun n f => x (ix4 (i 0) (i 1) n f)) We be Wn bn (i 2) (i 3)

/-- The layer on the input with its two leading axes merged, [128, 64, 128]. -/
def layer3 (x : SX3.Idx → EReal) (We : SW.Idx → EReal) (be : SB.Idx → EReal) (Wn : SW.Idx → EReal) (bn : SB.Idx → EReal) :
    SX3.Idx → EReal :=
  fun i => node (fun n f => x (ix3 (i 0) n f)) We be Wn bn (i 1) (i 2)

/-- The layer on a block of four graphs, [4, 64, 128]. -/
def layerB (x : SXB.Idx → EReal) (We : SW.Idx → EReal) (be : SB.Idx → EReal) (Wn : SW.Idx → EReal) (bn : SB.Idx → EReal) :
    SXB.Idx → EReal :=
  fun i => node (fun n f => x (ix3 (i 0) n f)) We be Wn bn (i 1) (i 2)

end Cert.Gnn

end
-- ==== Proof.RefLayer.lean ====
/-
  The reference program, read one operation at a time, is the message-passing layer of the
  specification.

  At an index (b, l, n, o) the reference's last stage is
    max (Σ_{c : Fin 256} cat (b, l, n, c) · Wn[o, c] + bn o) 0,
  where cat joins, along the last axis, the features x (b, l, n, ·) (columns below 128) and the
  aggregate (columns 128 + k). The aggregate at (b, l, n, k) is 0 + Σ_j max (p (b,l,n,k) + q (b,l,j,k) + be k) 0
  with p, q the contractions of x against the left and the right half of We. Each stage is read at
  explicit coordinates, bottom-up; the only algebra is that a sum over 256 columns is the sum over
  its two halves (sum_halves) and that 0 + s = s. Nothing is asked of the inputs.
-/
import proofs.«172344_j83150566851123_1_alg».proof.Proof.Gen.ReferenceIdeal.Read
import proofs.«172344_j83150566851123_1_alg».proof.Proof.Spec

noncomputable section

open scoped BigOperators

namespace Cert.Gnn.Ref

open Cert.ReferenceIdeal Cert.ReferenceIdeal.Read Idealize.ShloMosaic Idealize.ShloMosaic.ValueIdx

variable (x0 : (⟨S4x32x64x128, .f32⟩ : BufTy).Contents (Elt Ideal))
  (x1 : (⟨S128x256, .f32⟩ : BufTy).Contents (Elt Ideal))
  (x2 : (⟨S128, .f32⟩ : BufTy).Contents (Elt Ideal))
  (x3 : (⟨S128x256, .f32⟩ : BufTy).Contents (Elt Ideal))
  (x4 : (⟨S128, .f32⟩ : BufTy).Contents (Elt Ideal))

/-- The features of graph (b, l): node n, feature f. -/
abbrev graph (b : Fin 4) (l : Fin 32) : Fin 64 → Fin 128 → EReal := fun n f => x0 (ix4 b l n f)

/-- The first contraction at (b, l, n, k) is node n's projection through the left half of We. -/
theorem v2_at (b : Fin 4) (l : Fin 32) (n : Fin 64) (k : Fin 128) :
    val_main_v2 (F := Ideal) x0 x1 (ix4 b l n k) = pI (graph x0 b l) x1 n k := by
  rw [val_main_v2_apply]
  unfold pI
  refine Finset.sum_congr rfl fun f _ => ?_
  rw [val_main_v0_apply]
  have e1 : lidx_main_v2 (ix4 b l n k) f = ix4 b l n f :=
    funext fun a => Fin.ext (by match a with | ⟨0, _⟩ => rfl | ⟨1, _⟩ => rfl | ⟨2, _⟩ => rfl | ⟨3, _⟩ => rfl)
  have e2 : idx_main_v0 (ridx_main_v2 (ix4 b l n k) f) = ix2 k (lo f) :=
    funext fun a => Fin.ext (by match a with | ⟨0, _⟩ => rfl | ⟨1, _⟩ => rfl)
  rw [e1, e2]

/-- The second contraction at (b, l, j, k) is node j's projection through the right half of We. -/
theorem v3_at (b : Fin 4) (l : Fin 32) (j : Fin 64) (k : Fin 128) :
    val_main_v3 (F := Ideal) x0 x1 (ix4 b l j k) = pJ (graph x0 b l) x1 j k := by
  rw [val_main_v3_apply]
  unfold pJ
  refine Finset.sum_congr rfl fun f _ => ?_
  rw [val_main_v1_apply]
  have e1 : lidx_main_v3 (ix4 b l j k) f = ix4 b l j f :=
    funext fun a => Fin.ext (by match a with | ⟨0, _⟩ => rfl | ⟨1, _⟩ => rfl | ⟨2, _⟩ => rfl | ⟨3, _⟩ => rfl)
  have e2 : idx_main_v1 (ridx_main_v3 (ix4 b l j k) f) = ix2 k (hi f) :=
    funext fun a => Fin.ext (by match a with | ⟨0, _⟩ => rfl | ⟨1, _⟩ => rfl)
  rw [e1, e2]

/-- The rectified edge message from node j into node n, at feature k. -/
theorem v12_at (b : Fin 4) (l : Fin 32) (n j : Fin 64) (k : Fin 128) :
    val_main_v12 (F := Ideal) x0 x1 x2 (ix5 b l n j k)
      = max (pI (graph x0 b l) x1 n k + pJ (graph x0 b l) x1 j k + x2 (ix1 k)) 0 := by
  rw [val_main_v12_apply, val_main_v11_apply, val_main_v8_apply, val_main_v6_apply, val_main_v4_apply,
    val_main_v7_apply, val_main_v5_apply, val_main_v10_apply, val_main_v9_apply, val_main_call0_v0_apply,
    val_main_call0_cst_apply]
  have e6 : idx_main_v4 (idx_main_v6 (ix5 b l n j k)) = ix4 b l n k :=
    funext fun a => Fin.ext (by match a with | ⟨0, _⟩ => rfl | ⟨1, _⟩ => rfl | ⟨2, _⟩ => rfl | ⟨3, _⟩ => rfl)
  have e7 : idx_main_v5 (idx_main_v7 (ix5 b l n j k)) = ix4 b l j k :=
    funext fun a => Fin.ext (by match a with | ⟨0, _⟩ => rfl | ⟨1, _⟩ => rfl | ⟨2, _⟩ => rfl | ⟨3, _⟩ => rfl)
  have e9 : idx_main_v9 (idx_main_v10 (ix5 b l n j k)) = ix1 k :=
    funext fun a => Fin.ext (by match a with | ⟨0, _⟩ => rfl)
  rw [e6, e7, e9, v2_at, v3_at]
  simp only [Ideal.addf_def, Ideal.maximumf_def, Ideal.ofBits_def, Ideal.ofBits_zero_f32]

/-- The sum of the edge messages over the neighbours, started from the zero word, is the aggregate. -/
theorem v13_at (b : Fin 4) (l : Fin 32) (n : Fin 64) (k : Fin 128) :
    val_main_v13 (F := Ideal) x0 x1 x2 (ix4 b l n k) = agg (graph x0 b l) x1 x2 n k := by
  rw [val_main_v13_apply, val_main_cst_apply]
  unfold agg
  simp only [Ideal.ofBits_def, Ideal.ofBits_zero_f32, zero_add]
  refine Finset.sum_congr rfl fun j _ => ?_
  have e : idx_main_v13 (ix4 b l n k) j = ix5 b l n j k :=
    funext fun a => Fin.ext (by
      match a with | ⟨0, _⟩ => rfl | ⟨1, _⟩ => rfl | ⟨2, _⟩ => rfl | ⟨3, _⟩ => rfl | ⟨4, _⟩ => rfl)
  rw [e, v12_at]

/-- A column in the left half of the joined array reads the features. -/
theorem v14_lo (b : Fin 4) (l : Fin 32) (n : Fin 64) (f : Fin 128) :
    val_main_v14 (F := Ideal) x0 x1 x2 (ix4 b l n (lo f)) = x0 (ix4 b l n f) := by
  unfold val_main_v14
  exact concatenate_pair_apply_left 3 x0 (val_main_v13 (F := Ideal) x0 x1 x2)
    Gen.concatenates_S4x32x64x128_S4x32x64x128_S4x32x64x256_d3 (ix4 b l n (lo f)) rfl (ix4 b l n f)
    (fun a => by match a with | ⟨0, _⟩ => rfl | ⟨1, _⟩ => rfl | ⟨2, _⟩ => rfl | ⟨3, _⟩ => rfl)

/-- A column in the right half reads the aggregate, 128 columns to the left. -/
theorem v14_hi (b : Fin 4) (l : Fin 32) (n : Fin 64) (k : Fin 128) :
    val_main_v14 (F := Ideal) x0 x1 x2 (ix4 b l n (hi k)) = agg (graph x0 b l) x1 x2 n k := by
  rw [← v13_at]
  unfold val_main_v14
  exact concatenate_pair_apply_right 3 x0 (val_main_v13 (F := Ideal) x0 x1 x2)
    Gen.concatenates_S4x32x64x128_S4x32x64x128_S4x32x64x256_d3 (ix4 b l n (hi k)) rfl rfl (ix4 b l n k)
    (fun a ha => by
      match a, ha with
      | ⟨0, _⟩, _ => rfl
      | ⟨1, _⟩, _ => rfl
      | ⟨2, _⟩, _ => rfl
      | ⟨3, _⟩, ha => exact absurd rfl ha)
    (by show k.val + 128 = 128 + k.val; omega)

/-- The reference is the layer of the specification. -/
theorem ref_eq_layer4 (x0 : (⟨S4x32x64x128, .f32⟩ : BufTy).Contents (Elt Ideal)) (x1 : (⟨S128x256, .f32⟩ : BufTy).Contents (Elt Ideal)) (x2 : (⟨S128, .f32⟩ : BufTy).Contents (Elt Ideal)) (x3 : (⟨S128x256, .f32⟩ : BufTy).Contents (Elt Ideal)) (x4 : (⟨S128, .f32⟩ : BufTy).Contents (Elt Ideal)) :
    val_main_v19 (F := Ideal) x0 x1 x2 x3 x4 = Cert.Gnn.layer4 x0 x1 x2 x3 x4 := by
  funext i
  obtain ⟨b, l, n, o, rfl⟩ : ∃ b l n o, i = ix4 b l n o := ⟨i 0, i 1, i 2, i 3, eq_ix4 i⟩
  rw [val_main_v19_apply, val_main_v18_apply, val_main_v15_apply, val_main_v17_apply, val_main_v16_apply,
    val_main_call1_v0_apply, val_main_call1_cst_apply]
  have e17 : idx_main_v16 (idx_main_v17 (ix4 b l n o)) = ix1 o :=
    funext fun a => Fin.ext (by match a with | ⟨0, _⟩ => rfl)
  have eL : ∀ c : Fin 256, lidx_main_v15 (ix4 b l n o) c = ix4 b l n c := fun c =>
    funext fun a => Fin.ext (by match a with | ⟨0, _⟩ => rfl | ⟨1, _⟩ => rfl | ⟨2, _⟩ => rfl | ⟨3, _⟩ => rfl)
  have eR : ∀ c : Fin 256, ridx_main_v15 (ix4 b l n o) c = ix2 o c := fun c =>
    funext fun a => Fin.ext (by match a with | ⟨0, _⟩ => rfl | ⟨1, _⟩ => rfl)
  simp only [eL, eR, e17]
  rw [sum_halves]
  simp only [v14_lo, v14_hi, Ideal.addf_def, Ideal.maximumf_def, Ideal.ofBits_def, Ideal.ofBits_zero_f32]
  rfl

end Cert.Gnn.Ref

end
-- ==== Proof.KLayout.lean ====
/-
  The block kernel's layout steps read at an index.

  A block of four graphs x : [4, 64, 128] is flattened to [256, 128] (row 64 g + n is node n of graph g) for the
  matrix products and unflattened afterwards; the weight halves W[:, :128] and W[:, 128:] are transposed before
  the products; the two projections are laid along axes 1 and 2 of a [4, 64, 64, 128] edge array by a unit axis
  and a broadcast; the biases are broadcast along the leading axes. Each lemma reads one such step at an index
  given by its coordinates. The products and the neighbour sum are read as finite sums over `Fin 128` and `Fin 64`.
-/
import proofs.«172344_j83150566851123_1_alg».proof.Proof.Gen.KernelIdeal
import proofs.«172344_j83150566851123_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Lay

open Cert.KernelIdeal Cert.Gnn

variable {α : Type}

/-- Row `64 g + n` of the flattened block: node `n` of graph `g`. -/
def row (g : Fin 4) (n : Fin 64) : Fin 256 := ⟨64 * g.val + n.val, by have := g.isLt; have := n.isLt; omega⟩

theorem row_val (g : Fin 4) (n : Fin 64) : (row g n).val = 64 * g.val + n.val := rfl

/-- Flattening [4, 64, 128] to [256, 128]: row `64 g + n` is `(g, n)`. -/
theorem flat_apply (v : S4x64x128.Idx → α) (h : S4x64x128.ShapeCasts S256x128) (g : Fin 4) (n : Fin 64) (f : Fin 128) :
    shapeCast S256x128 v h (ix2 (row g n) f) = v (ix3 g n f) :=
  shapeCast_apply v h _ _ (by
    rw [Shape.rowMajor_val_three, Shape.rowMajor_val_two]
    show (g.val * 64 + n.val) * 128 + f.val = (64 * g.val + n.val) * 128 + f.val
    omega)

/-- Unflattening [256, 128] to [4, 64, 128]. -/
theorem unflat_apply (v : S256x128.Idx → α) (h : S256x128.ShapeCasts S4x64x128) (g : Fin 4) (n : Fin 64) (o : Fin 128) :
    shapeCast S4x64x128 v h (ix3 g n o) = v (ix2 (row g n) o) :=
  shapeCast_apply v h _ _ (by
    rw [Shape.rowMajor_val_three, Shape.rowMajor_val_two]
    show (64 * g.val + n.val) * 128 + o.val = (g.val * 64 + n.val) * 128 + o.val
    omega)

/-- A [4, 64, 128] array laid along axes 0, 1, 3 of the edge array: constant in the neighbour `j`. -/
theorem alongI_apply (v : S4x64x128.Idx → α) (h1 : S4x64x128.ShapeCasts S4x64x1x128) (h2 : S4x64x1x128.Broadcasts S4x64x64x128)
    (g : Fin 4) (n j : Fin 64) (k : Fin 128) :
    broadcastTo S4x64x64x128 (shapeCast S4x64x1x128 v h1) h2 (ix4 g n j k) = v (ix3 g n k) := by
  refine (broadcastTo_apply _ h2 (ix4 g n j k) (ix4 g n (0 : Fin 1) k) fun a => ?_).trans ?_
  · match a with
    | ⟨0, _⟩ => show g.val = if (4 : Nat) = 1 then 0 else g.val; rw [if_neg (by decide)]
    | ⟨1, _⟩ => show n.val = if (64 : Nat) = 1 then 0 else n.val; rw [if_neg (by decide)]
    | ⟨2, _⟩ => show 0 = if (1 : Nat) = 1 then 0 else j.val; rw [if_pos rfl]
    | ⟨3, _⟩ => show k.val = if (128 : Nat) = 1 then 0 else k.val; rw [if_neg (by decide)]
  · exact shapeCast_apply v h1 _ _ (by
      rw [Shape.rowMajor_val_three, Shape.rowMajor_val_four]
      show (g.val * 64 + n.val) * 128 + k.val = ((g.val * 64 + n.val) * 1 + 0) * 128 + k.val
      omega)

/-- A [4, 64, 128] array laid along axes 0, 2, 3 of the edge array: constant in the node `n`. -/
theorem alongJ_apply (v : S4x64x128.Idx → α) (h1 : S4x64x128.ShapeCasts S4x1x64x128) (h2 : S4x1x64x128.Broadcasts S4x64x64x128)
    (g : Fin 4) (n j : Fin 64) (k : Fin 128) :
    broadcastTo S4x64x64x128 (shapeCast S4x1x64x128 v h1) h2 (ix4 g n j k) = v (ix3 g j k) := by
  refine (broadcastTo_apply _ h2 (ix4 g n j k) (ix4 g (0 : Fin 1) j k) fun a => ?_).trans ?_
  · match a with
    | ⟨0, _⟩ => show g.val = if (4 : Nat) = 1 then 0 else g.val; rw [if_neg (by decide)]
    | ⟨1, _⟩ => show 0 = if (1 : Nat) = 1 then 0 else n.val; rw [if_pos rfl]
    | ⟨2, _⟩ => show j.val = if (64 : Nat) = 1 then 0 else j.val; rw [if_neg (by decide)]
    | ⟨3, _⟩ => show k.val = if (128 : Nat) = 1 then 0 else k.val; rw [if_neg (by decide)]
  · exact shapeCast_apply v h1 _ _ (by
      rw [Shape.rowMajor_val_three, Shape.rowMajor_val_four]
      show (g.val * 64 + j.val) * 128 + k.val = ((g.val * 1 + 0) * 64 + j.val) * 128 + k.val
      omega)

/-- A [128] bias along the last axis of the edge array. -/
theorem biasE_apply (b : S128.Idx → α) (h1 : S128.ShapeCasts S1x1x1x128) (h2 : S1x1x1x128.Broadcasts S4x64x64x128)
    (g : Fin 4) (n j : Fin 64) (k : Fin 128) :
    broadcastTo S4x64x64x128 (shapeCast S1x1x1x128 b h1) h2 (ix4 g n j k) = b (ix1 k) := by
  refine (broadcastTo_apply _ h2 (ix4 g n j k) (ix4 (0 : Fin 1) (0 : Fin 1) (0 : Fin 1) k) fun a => ?_).trans ?_
  · match a with
    | ⟨0, _⟩ => show 0 = if (1 : Nat) = 1 then 0 else g.val; rw [if_pos rfl]
    | ⟨1, _⟩ => show 0 = if (1 : Nat) = 1 then 0 else n.val; rw [if_pos rfl]
    | ⟨2, _⟩ => show 0 = if (1 : Nat) = 1 then 0 else j.val; rw [if_pos rfl]
    | ⟨3, _⟩ => show k.val = if (128 : Nat) = 1 then 0 else k.val; rw [if_neg (by decide)]
  · exact shapeCast_apply b h1 _ _ (by
      rw [Shape.rowMajor_val_one, Shape.rowMajor_val_four]
      show k.val = ((0 * 1 + 0) * 1 + 0) * 128 + k.val
      omega)

/-- A [128] bias along the columns of the flattened block. -/
theorem biasN_apply (b : S128.Idx → α) (h1 : S128.ShapeCasts S1x128) (h2 : S1x128.Broadcasts S256x128)
    (r : Fin 256) (o : Fin 128) :
    broadcastTo S256x128 (shapeCast S1x128 b h1) h2 (ix2 r o) = b (ix1 o) :=
  (broadcastTo_1b_ab_apply _ h2 r o).trans (shapeCast_a_1a_apply b h1 0 o)

/-- The left half of a [128, 256] weight, transposed: entry `(f, o)` is `W[o, f]`. -/
theorem halfLoT_apply (w : S128x256.Idx → α) (h1 : S128x256.Slices ![0, 0] S128x128)
    (h3 : S128x128.Transposes [1, 0] S128x128) (f o : Fin 128) :
    transpose S128x128 [1, 0] (extractStridedSlice S128x128 ![0, 0] w h1) h3 (ix2 f o) = w (ix2 o (lo f)) :=
  (transpose_ix2_apply _ h3 f o).trans (extractStridedSlice_apply _ w h1 _ _ fun a => match a with
    | ⟨0, _⟩ => by show o.val = 0 + o.val; omega
    | ⟨1, _⟩ => by show f.val = 0 + f.val; omega)

/-- The right half, transposed: entry `(f, o)` is `W[o, 128 + f]`. -/
theorem halfHiT_apply (w : S128x256.Idx → α) (h1 : S128x256.Slices ![0, 128] S128x128)
    (h3 : S128x128.Transposes [1, 0] S128x128) (f o : Fin 128) :
    transpose S128x128 [1, 0] (extractStridedSlice S128x128 ![0, 128] w h1) h3 (ix2 f o) = w (ix2 o (hi f)) :=
  (transpose_ix2_apply _ h3 f o).trans (extractStridedSlice_apply _ w h1 _ _ fun a => match a with
    | ⟨0, _⟩ => by show o.val = 0 + o.val; omega
    | ⟨1, _⟩ => by show 128 + f.val = 128 + f.val; omega)

end Cert.KernelIdeal.Lay

end
-- ==== Proof.KSums.lean ====
/-
  The block kernel's two contractions read as finite sums, at the exact values.

  A product of a [256, 128] matrix with a [128, 128] matrix into a zero accumulator is, at `(r, o)`, the sum
  over `k : Fin 128` of `A r k · B k o`; the reduction of the [4, 64, 64, 128] edge array over its axis 2 is, at
  `(g, n, k)`, the sum over the neighbours `j : Fin 64`.
-/
import proofs.«172344_j83150566851123_1_alg».proof.Proof.Gen.KernelIdeal
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Lay

open Cert.KernelIdeal

/-- The left operand's row coordinate is the result's row. -/
theorem lhs_row (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
/-- Its column coordinate is the contracted one. -/
theorem lhs_col (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q
/-- The right operand's row coordinate is the contracted one. -/
theorem rhs_row (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q
/-- Its column coordinate is the result's column. -/
theorem rhs_col (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- The matrix product into a zero accumulator, at `(r, o)`: `Σ k, A r k · B k o`. -/
theorem mm_apply {φ₁ φ₂ : FTy} (A : FVec Ideal S256x128 φ₁) (B : FVec Ideal S128x128 φ₂) (r : Fin 256) (o : Fin 128) :
    matmul dot_S256x128_S128x128_S256x128_1_0_0_1_n_n none A B (constant (F := Ideal) S256x128 .f32 0x00000000#32) (ix2 r o)
      = ∑ k : Fin 128, A (ix2 r k) * B (ix2 k o) := by
  simp only [matmul]
  rw [Ideal.matmul_constant_zero_apply, ← Equiv.sum_comp (contrEquiv1 dot_S256x128_S128x128_S256x128_1_0_0_1_n_n 128 rfl rfl).symm]
  refine Finset.sum_congr rfl fun k _ => ?_
  have hk := contrEquiv1_symm_val dot_S256x128_S128x128_S256x128_1_0_0_1_n_n 128 rfl rfl k
  have el : dot_S256x128_S128x128_S256x128_1_0_0_1_n_n.lhsIdx (ix2 r o) ((contrEquiv1 dot_S256x128_S128x128_S256x128_1_0_0_1_n_n 128 rfl rfl).symm k) = ix2 r k := funext fun a => Fin.ext (by
    match a with
    | ⟨0, _⟩ => exact lhs_row _ _
    | ⟨1, _⟩ => exact (lhs_col _ _).trans hk)
  have er : dot_S256x128_S128x128_S256x128_1_0_0_1_n_n.rhsIdx (ix2 r o) ((contrEquiv1 dot_S256x128_S128x128_S256x128_1_0_0_1_n_n 128 rfl rfl).symm k) = ix2 k o := funext fun a => Fin.ext (by
    match a with
    | ⟨0, _⟩ => exact (rhs_row _ _).trans hk
    | ⟨1, _⟩ => exact rhs_col _ _)
  rw [el, er]

/-- The sum of the edge array over its neighbour axis, at `(g, n, k)`. -/
theorem nbrSum_apply (src : FVec Ideal S4x64x64x128 .f32) (h : S4x64x64x128.Reduces [2] S4x64x128)
    (hφ : FKind.Formats .f32) (hacc : (0x00000000#32 : BitVec 32) = FKind.add.neutral .f32 hφ)
    (g : Fin 4) (n : Fin 64) (k : Fin 128) :
    multiReduction (F := Ideal) .add [2] S4x64x128 src 0x00000000#32 h hφ hacc (ix3 g n k) = ∑ j : Fin 64, src (ix4 g n j k) := by
  refine (Ideal.multiReduction_add_single src 0x00000000#32 h hφ hacc (ix3 g n k)).trans ?_
  refine Finset.sum_congr rfl fun j _ => congrArg src (funext fun a => Fin.ext ?_)
  match a with
  | ⟨0, _⟩ => rfl
  | ⟨1, _⟩ => rfl
  | ⟨2, _⟩ => rfl
  | ⟨3, _⟩ => rfl

end Cert.KernelIdeal.Lay

end
-- ==== Proof.Payload.lean ====
/-
  What one grid point of the kernel stores, as a function of the blocks it loads, at the exact values:
  the message-passing layer on the block of four graphs.
-/
import proofs.«172344_j83150566851123_1_alg».proof.Proof.Gen.KernelIdeal.Skeleton
import proofs.«172344_j83150566851123_1_alg».proof.Proof.Spec
import proofs.«172344_j83150566851123_1_alg».proof.Proof.KLayout
import proofs.«172344_j83150566851123_1_alg».proof.Proof.KSums

noncomputable section

open scoped BigOperators
open Idealize.ShloMosaic Idealize.ShloMosaic.ValueIdx

namespace Cert.KernelIdeal.Pay

open Cert.KernelIdeal Cert.KernelIdeal.Gen Cert.KernelIdeal.Lay Cert.Gnn

/-! ## The operand steps at an index

  The weights are narrowed and transposed before the products and the block is narrowed and flattened; at the
  exact values a narrowing is the identity, so each step only renames the index. -/

/-- The narrowed, transposed left half of a weight: entry (f, o) is W[o, f]. -/
theorem loT_apply (w : FVec Ideal S128x256 .f32) (h1 : S128x256.Slices ![0, 0] S128x128)
    (hb : FTy.bits .bf16 < FTy.bits .f32) (h3 : S128x128.Transposes [1, 0] S128x128) (f o : Fin 128) :
    transpose S128x128 [1, 0] (truncf .bf16 (extractStridedSlice S128x128 ![0, 0] w h1) hb) h3 (ix2 f o)
      = w (ix2 o (lo f)) :=
  (transpose_ix2_apply _ h3 f o).trans
    ((truncf_apply (extractStridedSlice S128x128 ![0, 0] w h1) hb (ix2 o f)).trans
      ((transpose_ix2_apply (extractStridedSlice S128x128 ![0, 0] w h1) h3 f o).symm.trans (halfLoT_apply w h1 h3 f o)))

/-- The narrowed, transposed right half: entry (f, o) is W[o, 128 + f]. -/
theorem hiT_apply (w : FVec Ideal S128x256 .f32) (h1 : S128x256.Slices ![0, 128] S128x128)
    (hb : FTy.bits .bf16 < FTy.bits .f32) (h3 : S128x128.Transposes [1, 0] S128x128) (f o : Fin 128) :
    transpose S128x128 [1, 0] (truncf .bf16 (extractStridedSlice S128x128 ![0, 128] w h1) hb) h3 (ix2 f o)
      = w (ix2 o (hi f)) :=
  (transpose_ix2_apply _ h3 f o).trans
    ((truncf_apply (extractStridedSlice S128x128 ![0, 128] w h1) hb (ix2 o f)).trans
      ((transpose_ix2_apply (extractStridedSlice S128x128 ![0, 128] w h1) h3 f o).symm.trans (halfHiT_apply w h1 h3 f o)))

/-- A narrowed [4, 64, 128] array, flattened, times a [128, 128] matrix into zero: at row (g, n), column o, the sum
    over the shared coordinate. -/
theorem proj_apply {φ₂ : FTy} (v : FVec Ideal S4x64x128 .f32) (hb : FTy.bits .bf16 < FTy.bits .f32)
    (h : S4x64x128.ShapeCasts S256x128) (B : FVec Ideal S128x128 φ₂) (g : Fin 4) (n : Fin 64) (o : Fin 128) :
    matmul dot_S256x128_S128x128_S256x128_1_0_0_1_n_n none (shapeCast S256x128 (truncf .bf16 v hb) h) B
        (constant (F := Ideal) S256x128 .f32 0x00000000#32) (ix2 (row g n) o)
      = ∑ k : Fin 128, v (ix3 g n k) * B (ix2 k o) :=
  (mm_apply _ B (row g n) o).trans (Finset.sum_congr rfl fun k _ => by rw [flat_apply]; rfl)

/-! ## The sum over the neighbours -/

/-- The sum over the neighbour axis at (g, n, k), with the accumulator's neutrality stated as the equation between
    words it is once the neutral element of addition is computed. -/
theorem nbr_apply (src : FVec Ideal S4x64x64x128 .f32) (h : S4x64x64x128.Reduces [2] S4x64x128)
    (hφ : FKind.Formats .f32) (hacc : (0x00000000#32 : BitVec FTy.f32.bits) = 0x00000000#32)
    (g : Fin 4) (n : Fin 64) (k : Fin 128) :
    multiReduction (F := Ideal) .add [2] S4x64x128 src 0x00000000#32 h hφ hacc (ix3 g n k)
      = ∑ j : Fin 64, src (ix4 g n j k) :=
  nbrSum_apply src h hφ hacc g n k

/-- The stored block is the layer on the loaded block of four graphs. -/
theorem pay_eq (x0 : Vec Ideal S4x64x128 .f32) (x1 : Vec Ideal S128x256 .f32) (x2 : Vec Ideal S128 .f32)
    (x3 : Vec Ideal S128x256 .f32) (x4 : Vec Ideal S128 .f32) :
    k0_pay1 (F := Ideal) (k0_pay2 (F := Ideal) x0 x1 x2 x3 x4) (Scalar.ofBits .f32 0x00000000#32)
      = Cert.Gnn.layerB x0 x1 x2 x3 x4 := by
  funext i
  obtain ⟨g, n, o, rfl⟩ : ∃ g n o, i = ix3 g n o := ⟨i 0, i 1, i 2, eq_ix3 i⟩
  unfold k0_pay1 k0_pay2
  -- the outer steps: the unflattening, the two maxima and the sums at an index, the two products into the result
  -- and the sum over the neighbours
  simp (config := {proj := false}) only [unflat_apply, maximumf_apply, addf_apply, broadcast_apply, biasN_apply,
    proj_apply, loT_apply, hiT_apply, shapeCast_self, truncf_apply, nbr_apply]
  -- the edge array's three terms at (g, n, j, k), and the two projections under them
  simp (config := {proj := false}) only [alongI_apply, alongJ_apply, biasE_apply, unflat_apply, proj_apply, loT_apply,
    hiT_apply, shapeCast_self, truncf_apply]
  -- the zero word is the extended real 0; what is left is the layer's definition at (g, n, o)
  simp only [Ideal.ofBits_def, Ideal.ofBits_zero_f32]
  rfl

end Cert.KernelIdeal.Pay

end
-- ==== Proof.KernelValue.lean ====
/-
  The kernel's result array as one function of its arguments.

  The grid has 32 points; point t loads graphs 4t … 4t+3 of the input with its two leading axes merged
  ([128, 64, 128]) and the four weight and bias arrays whole, and writes the layer's value on those four graphs
  back to rows 4t … 4t+3 of the result. The 32 blocks tile the result, so the result array is the layer on the
  merged input; the merges before and after the grid are reshapes, which keep row-major positions, so the
  program's result on the [4, 32, 64, 128] input is the layer graph by graph.
-/
import proofs.«172344_j83150566851123_1_alg».proof.Proof.Gen.KernelIdeal.Frame
import proofs.«172344_j83150566851123_1_alg».proof.Proof.Spec
import proofs.«172344_j83150566851123_1_alg».proof.Proof.Payload
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.Gnn

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The block indices over the grid: the input and the result move with the point along axis 0, every weight and
    bias block is block 0. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

/-- Point `t`'s input block is graphs `4t … 4t+3` of the merged input. -/
theorem xblk_apply (c : Dev nD) (t : Fin cfg0.N) (y : S4x64x128.Idx) (k : S128x64x128.Idx)
    (hk0 : (k 0).val = 4 * t.val + (y 0).val) (hk1 : (k 1).val = (y 1).val) (hk2 : (k 2).val = (y 2).val) :
    (iblk m c 0 t : Vec Ideal S4x64x128 .f32) y = (V m c main_v0 : S128x64x128.Idx → Elt Ideal .f32) k := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 4 + 1 * (y 0).val = (k 0).val; rw [e0, hk0]; omega
  | ⟨1, _⟩ => show win0_0.index t (1 : Fin 3) * 64 + 1 * (y 1).val = (k 1).val; rw [e1, hk1]; omega
  | ⟨2, _⟩ => show win0_0.index t (2 : Fin 3) * 128 + 1 * (y 2).val = (k 2).val; rw [e2, hk2]; omega

/-- Every point's block of the first weight is the whole array. -/
theorem wblk1 (c : Dev nD) (t : Fin cfg0.N) : (iblk m c 1 t : Vec Ideal S128x256 .f32) = V m c main_arg1 := by
  obtain ⟨-, -, -, -, -, -, e0, e1, -⟩ := idx_facts t
  funext y
  unfold iblk
  rw [View.read_apply]
  show V m c main_arg1 _ = V m c main_arg1 y
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 256 + 1 * (y 1).val = (y 1).val; rw [e1]; omega

/-- Every point's block of the first bias is the whole array. -/
theorem wblk2 (c : Dev nD) (t : Fin cfg0.N) : (iblk m c 2 t : Vec Ideal S128 .f32) = V m c main_arg2 := by
  obtain ⟨-, -, -, -, -, -, -, -, e0, -⟩ := idx_facts t
  funext y
  unfold iblk
  rw [View.read_apply]
  show V m c main_arg2 _ = V m c main_arg2 y
  congr 1
  funext a
  apply Fin.ext
  match a with
  | ⟨0, _⟩ => show win0_2.index t (0 : Fin 1) * 128 + 1 * (y 0).val = (y 0).val; rw [e0]; omega

/-- Every point's block of the second weight is the whole array. -/
theorem wblk3 (c : Dev nD) (t : Fin cfg0.N) : (iblk m c 3 t : Vec Ideal S128x256 .f32) = V m c main_arg3 := by
  obtain ⟨-, -, -, -, -, -, -, -, -, e0, e1, -⟩ := idx_facts t
  funext y
  unfold iblk
  rw [View.read_apply]
  show V m c main_arg3 _ = V m c main_arg3 y
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

/-- Every point's block of the second bias is the whole array. -/
theorem wblk4 (c : Dev nD) (t : Fin cfg0.N) : (iblk m c 4 t : Vec Ideal S128 .f32) = V m c main_arg4 := by
  obtain ⟨-, -, -, -, -, -, -, -, -, -, -, e0⟩ := idx_facts t
  funext y
  unfold iblk
  rw [View.read_apply]
  show V m c main_arg4 _ = V m c main_arg4 y
  congr 1
  funext a
  apply Fin.ext
  match a with
  | ⟨0, _⟩ => show win0_4.index t (0 : Fin 1) * 128 + 1 * (y 0).val = (y 0).val; rw [e0]; omega

/-- A block of four graphs cut from the merged input: the layer on the block is the layer on the input. -/
theorem layerB_eq_layer3 (X : SX3.Idx → EReal) (xb : SXB.Idx → EReal) (We : SW.Idx → EReal) (be : SB.Idx → EReal)
    (Wn : SW.Idx → EReal) (bn : SB.Idx → EReal) (i : SXB.Idx) (i' : SX3.Idx)
    (hx : ∀ (n : Fin 64) (f : Fin 128), xb (ix3 (i 0) n f) = X (ix3 (i' 0) n f)) (h1 : i' 1 = i 1) (h2 : i' 2 = i 2) :
    layerB xb We be Wn bn i = layer3 X We be Wn bn i' := by
  unfold layerB layer3
  rw [h1, h2, show (fun n f => xb (ix3 (i 0) n f)) = fun n f => X (ix3 (i' 0) n f) from funext fun n => funext fun f => hx n f]

/-- The layer on the merged input as the region finds it. -/
abbrev result3 (c : Dev nD) : S128x64x128.Idx → EReal :=
  layer3 (V m c main_v0) (V m c main_arg1) (V m c main_arg2) (V m c main_arg3) (V m c main_arg4)

/-- What point `t` writes back is its block of the layer on the merged input. -/
theorem flushed_eq (c : Dev nD) (t : Fin cfg0.N) :
    (dats m 0 c).flushed 5 t = ((cfg0.win 5).blk t).view.read (Elt Ideal) (result3 m c) := by
  show (cfg0.win 5).cut (grid0.coords t) ((dats m 0 c).after 5 t) = _
  rw [after0_5]
  unfold out0_5
  rw [View.canon_unit_zero hz3]
  simp only [View.ld_unit_zero (S := S4x64x128) hz3, View.ld_unit_zero (S := S128x256) hz2, View.ld_unit_zero (S := S128) hz1]
  rw [Pay.pay_eq, wblk1, wblk2, wblk3, wblk4]
  obtain ⟨-, -, -, e0, e1, e2, -⟩ := idx_facts t
  funext j
  show layerB (iblk m c 0 t) (V m c main_arg1) (V m c main_arg2) (V m c main_arg3) (V m c main_arg4) j
    = result3 m c (((cfg0.win 5).blk t).view.emb j)
  refine layerB_eq_layer3 _ _ _ _ _ _ j _ (fun n f => xblk_apply m c t _ _ ?_ rfl rfl) ?_ ?_
  · show win0_5.index t (0 : Fin 3) * 4 + 1 * (j 0).val = 4 * t.val + (j 0).val
    rw [e0]; omega
  · apply Fin.ext
    show win0_5.index t (1 : Fin 3) * 64 + 1 * (j 1).val = (j 1).val
    rw [e1]; omega
  · apply Fin.ext
    show win0_5.index t (2 : Fin 3) * 128 + 1 * (j 2).val = (j 2).val
    rw [e2]; omega

/-- An index of the result array is in point `t`'s block iff each coordinate is in the block's range. -/
theorem mem_blk (t : Fin cfg0.N) (i : S128x64x128.Idx) :
    i ∈ ((cfg0.win 5).blk t).view.set ↔ ∀ a : Fin 3, win0_5.index t a * S4x64x128.size a ≤ (i a).val ∧ (i a).val < win0_5.index t a * S4x64x128.size a + S4x64x128.size a := by
  show i ∈ ((View.whole main_v1).slice (win0_5.rect t)).set ↔ _
  rw [View.set_slice_whole, Rect.mem_set_unit]
  exact Iff.rfl

/-- Graph `q` of the result is written by point `q / 4`: the blocks tile the array. -/
theorem cover (i : S128x64x128.Idx) :
    ∃ t : Fin cfg0.N, (cfg0.win 5).flush t = true ∧ i ∈ ((cfg0.win 5).blk t).view.set := by
  have hi0 : (i 0).val < 128 := (i 0).isLt
  have hi1 : (i 1).val < 64 := (i 1).isLt
  have hi2 : (i 2).val < 128 := (i 2).isLt
  have hN : cfg0.N = 32 := N_0
  obtain ⟨t, ht⟩ : ∃ t : Fin cfg0.N, t.val = (i 0).val / 4 := ⟨⟨(i 0).val / 4, by rw [hN]; omega⟩, rfl⟩
  obtain ⟨-, -, -, e0, e1, e2, -⟩ := idx_facts t
  refine ⟨t, flush0_5 t, ?_⟩
  rw [mem_blk]
  intro a
  match a with
  | ⟨0, _⟩ => show win0_5.index t (0 : Fin 3) * 4 ≤ (i 0).val ∧ (i 0).val < win0_5.index t (0 : Fin 3) * 4 + 4; rw [e0, ht]; omega
  | ⟨1, _⟩ => show win0_5.index t (1 : Fin 3) * 64 ≤ (i 1).val ∧ (i 1).val < win0_5.index t (1 : Fin 3) * 64 + 64; rw [e1]; omega
  | ⟨2, _⟩ => show win0_5.index t (2 : Fin 3) * 128 ≤ (i 2).val ∧ (i 2).val < win0_5.index t (2 : Fin 3) * 128 + 128; rw [e2]; omega

/-- The result array after the grid: the layer on the merged input. -/
theorem final (c : Dev nD) : (dats m 0 c).arrAt 5 cfg0.N = result3 m c :=
  (dats m 0 c).arrAt_eq_of_cover 5 (result3 m c) (fun t _ => flushed_eq m c t) cover

/-- Graph `32 b + l` of the merged input. -/
def gr (b : Fin 4) (l : Fin 32) : Fin 128 := ⟨32 * b.val + l.val, by have := b.isLt; have := l.isLt; omega⟩

/-- Merging the two leading axes keeps row-major positions: graph `32 b + l` is `(b, l)`. -/
theorem merge_apply {α : Type} (x : S4x32x64x128.Idx → α) (h : S4x32x64x128.ShapeCasts S128x64x128)
    (b : Fin 4) (l : Fin 32) (n : Fin 64) (f : Fin 128) :
    shapeCast S128x64x128 x h (ix3 (gr b l) n f) = x (ix4 b l n f) :=
  shapeCast_apply x h _ _ (by
    rw [Shape.rowMajor_val_four, Shape.rowMajor_val_three]
    show ((b.val * 32 + l.val) * 64 + n.val) * 128 + f.val = ((32 * b.val + l.val) * 64 + n.val) * 128 + f.val
    omega)

/-- Splitting them again. -/
theorem split_apply {α : Type} (y : S128x64x128.Idx → α) (h : S128x64x128.ShapeCasts S4x32x64x128)
    (b : Fin 4) (l : Fin 32) (n : Fin 64) (o : Fin 128) :
    shapeCast S4x32x64x128 y h (ix4 b l n o) = y (ix3 (gr b l) n o) :=
  shapeCast_apply y h _ _ (by
    rw [Shape.rowMajor_val_three, Shape.rowMajor_val_four]
    show ((32 * b.val + l.val) * 64 + n.val) * 128 + o.val = ((b.val * 32 + l.val) * 64 + n.val) * 128 + o.val
    omega)

/-- The layer acts graph by graph, so it commutes with merging the two leading axes. -/
theorem layer_merge (x : SX4.Idx → EReal) (We : SW.Idx → EReal) (be : SB.Idx → EReal) (Wn : SW.Idx → EReal) (bn : SB.Idx → EReal)
    (h : S4x32x64x128.ShapeCasts S128x64x128) (h' : S128x64x128.ShapeCasts S4x32x64x128) :
    shapeCast S4x32x64x128 (layer3 (shapeCast S128x64x128 x h) We be Wn bn) h' = layer4 x We be Wn bn := by
  funext i
  obtain ⟨b, l, n, o, rfl⟩ : ∃ b l n o, i = ix4 b l n o := ⟨i 0, i 1, i 2, i 3, eq_ix4 i⟩
  rw [split_apply]
  show node (fun n' f => shapeCast S128x64x128 x h (ix3 (gr b l) n' f)) We be Wn bn n o
    = node (fun n' f => x (ix4 b l n' f)) We be Wn bn n o
  simp only [merge_apply]

section Host
open Idealize.ShloMosaic.StableHlo

/-- The region finds the input with its two leading axes merged. -/
theorem entry_v0 (c : Dev nD) :
    (V m c main_v0 : S128x64x128.Idx → EReal)
      = shapeCast S128x64x128 (m ((c : Thread nD τ).loc main_arg0)) Gen.shapeCasts_S4x32x64x128_S128x64x128 := by
  show StableHlo.after hostOps0 (fun b => m (c, b)) (Proc.devRef .tc main_v0) = _
  after_results
  rfl

/-- The program's result is the region's result array with its leading axis split. -/
theorem tail_v2 (c : Dev nD) :
    Pipeline.afterTail₀ cfgs (dats m) 0 (V0 m) [hostOps1] c main_v2
      = shapeCast S4x32x64x128 ((dats m 0 c).arrAt 5 cfg0.N) Gen.shapeCasts_S128x64x128_S4x32x64x128 := by
  unfold Pipeline.afterTail₀
  show StableHlo.after hostOps1 _ (Proc.devRef .tc main_v2) = _
  after_results
  have key : Pipeline.withArrays (cfgs 0).spec c (V0 m c) (fun w => (dats m 0 c).arrAt w (cfgs 0).N) (Proc.tc.devRef main_v1)
      = (dats m 0 c).arrAt 5 cfg0.N :=
    Pipeline.withArrays_arr spec0 launch0.win.arr_inj c _ _ 5
  rw [key]
  rfl

/-- The program's result on the input: the layer, graph by graph. -/
theorem result_v2 (c : Dev nD) :
    Pipeline.afterTail₀ cfgs (dats m) 0 (V0 m) [hostOps1] c main_v2
      = layer4 (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_v2, final]
  unfold result3
  rw [entry_v0, V_main_arg1, V_main_arg2, V_main_arg3, V_main_arg4]
  exact layer_merge _ _ _ _ _ _ _

/-- Every weakly fair execution of the idealized kernel program terminates with the result array at the layer of the
    argument arrays and the arguments unchanged. -/
theorem run : θ_run defs (onTc (τ := τ) (main (F := Ideal))) ⟨m, fun _ => 0, ρ⟩ fun r => ∀ c : Dev nD,
      r.2.mem ((c.tc : Thread nD τ).loc main_v2)
        = layer4 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans (result_v2 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Host

end Cert.KernelIdeal.Val

end
-- ==== Proof.lean ====
/-
  A message-passing layer over 128 graphs of 64 nodes, as a grid kernel and as a jnp program, computes one
  function on the extended reals.

  The input x : [4, 32, 64, 128] is 4 · 32 graphs of 64 nodes with 128 features; We, Wn : [128, 256] and
  be, bn : [128]. For one graph xg the layer is (Proof/Spec.lean)
    agg n k  = Σ_j max (Σ_f xg n f · We[k, f] + Σ_f xg j f · We[k, 128 + f] + be k) 0
    node n o = max (Σ_f xg n f · Wn[o, f] + Σ_k agg n k · Wn[o, 128 + k] + bn o) 0.
  The kernel merges the two leading axes, runs 32 grid points of four graphs each, every point computing the
  four sums as matrix products of the flattened [256, 128] block against the transposed halves of the weights and
  the neighbour sum as a reduction of a [4, 64, 64, 128] edge array, and splits the leading axis again; its 32
  result blocks tile the result array (Proof/Payload.lean, Proof/KernelValue.lean). The reference contracts the
  concatenation [x, agg] against Wn in one sum over 256 columns (Proof/RefLayer.lean). The one law between the two
  arrangements is that a sum over 256 columns is the sum over its two halves: a regrouping in a commutative
  monoid, valid at the infinities too, so the precondition is never opened. At the exact values every change of
  float format is the identity and a product into a zero accumulator is the plain sum. The ideal pass rewrote
  nothing, so the idealization conjunct is trivial; the three frames are the generated ones, the reference's
  being its generated run with the result dropped.
-/
import proofs.«172344_j83150566851123_1_alg».proof.Defs
import proofs.«172344_j83150566851123_1_alg».proof.Proof.Gen.Kernel
import proofs.«172344_j83150566851123_1_alg».proof.Proof.Gen.Kernel.Frame
import proofs.«172344_j83150566851123_1_alg».proof.Proof.Gen.KernelIdeal
import proofs.«172344_j83150566851123_1_alg».proof.Proof.Gen.KernelIdeal.Frame
import proofs.«172344_j83150566851123_1_alg».proof.Proof.Gen.ReferenceIdeal
import proofs.«172344_j83150566851123_1_alg».proof.Proof.Gen.Pre_finite_inputs
import proofs.«172344_j83150566851123_1_alg».proof.Proof.Gen.ReferenceIdeal.Run
import proofs.«172344_j83150566851123_1_alg».proof.Proof.Gen.ReferenceIdeal.Read
import proofs.«172344_j83150566851123_1_alg».proof.Proof.Spec
import proofs.«172344_j83150566851123_1_alg».proof.Proof.RefLayer
import proofs.«172344_j83150566851123_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the layer of their (agreeing) arguments in the result array. -/
theorem algebraic : Cert.algebraic_KernelIdeal_ReferenceIdeal := by
  intro m ρ m' ρ' _ hagree
  refine ⟨fun c => Cert.Gnn.layer4
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.Gnn.Ref.ref_eq_layer4,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
